-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x2048x2048 : Shape := ⟨3, ![8, 2048, 2048]⟩
abbrev S8x1x2048 : Shape := ⟨3, ![8, 1, 2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x1x2048 : S_.BroadcastsInDim S8x1x2048 (![] : Fin 0 → Fin S8x1x2048.rank)
  reducesTo_S8x1x2048_S_d0_1_2 : S8x1x2048.ReducesTo [0, 1, 2] S_

variable [Facts]

def fn {F : FTy → Type} [FloatOps F] (main_arg0 : FVec F S8x4096x2048 .f32) (main_arg1 : IVec S8x2048x2048 32) (main_arg2 : FVec F S8x1x2048 .f32) (main_arg3 : IVec S8x2048x2048 32) (main_arg4 : FVec F S8x1x2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x1x2048 .f32 := Host.absf main_arg2
  let main_cst_0 : FVec F S_ .f32 := constant S_ .f32 0x7F800000#32
  let main_v5 : FVec F S8x1x2048 .f32 := broadcastInDim S8x1x2048 ![] bcast_S_S8x1x2048 main_cst_0
  let main_v6 : IVec S8x1x2048 1 := cmpf .olt main_v4 main_v5
  let main_c_1 : IVec S_ 1 := constantI S_ 1 1#1
  let main_v7 : IVec S_ 1 := (fun x v => Host.reduce IntOp.andi x v reducesTo_S8x1x2048_S_d0_1_2 h_S_) main_v6 main_c_1
  let main_v8 : IVec S_ 1 := andi main_v3 main_v7
  let main_v9 : FVec F S8x1x2048 .f32 := Host.absf main_arg4
  let main_cst_2 : FVec F S_ .f32 := constant S_ .f32 0x7F800000#32
  let main_v10 : FVec F S8x1x2048 .f32 := broadcastInDim S8x1x2048 ![] bcast_S_S8x1x2048 main_cst_2
  let main_v11 : IVec S8x1x2048 1 := cmpf .olt main_v9 main_v10
  let main_c_3 : IVec S_ 1 := constantI S_ 1 1#1
  let main_v12 : IVec S_ 1 := (fun x v => Host.reduce IntOp.andi x v reducesTo_S8x1x2048_S_d0_1_2 h_S_) main_v11 main_c_3
  let main_v13 : IVec S_ 1 := andi main_v8 main_v12
  main_v13
-- ==== Kernel.lean ====
abbrev S8x4096x2048 : Shape := ⟨3, ![8, 4096, 2048]⟩
abbrev S8x2048x2048 : Shape := ⟨3, ![8, 2048, 2048]⟩
abbrev S8x1x2048 : Shape := ⟨3, ![8, 1, 2048]⟩
abbrev S1x256x2048 : Shape := ⟨3, ![1, 256, 2048]⟩
abbrev S1x2048x2048 : Shape := ⟨3, ![1, 2048, 2048]⟩
abbrev S1x1x2048 : Shape := ⟨3, ![1, 1, 2048]⟩
abbrev S256x2048 : Shape := ⟨2, ![256, 2048]⟩
abbrev S2048x2048 : Shape := ⟨2, ![2048, 2048]⟩
abbrev S1x2048 : Shape := ⟨2, ![1, 2048]⟩

abbrev nBuf : Space → Nat
  | .hbm => 8
  | .vmem => 11
  | .smem => 0
  | _ => 0

abbrev bufTy : (tb : Table) → Fin (tcTables nBuf tb) → BufTy
  | .hbm, ⟨0, _⟩ => ⟨S8x4096x2048, .f32⟩
  | .hbm, ⟨1, _⟩ => ⟨S8x2048x2048, .i32⟩
  | .hbm, ⟨2, _⟩ => ⟨S8x1x2048, .f32⟩
  | .hbm, ⟨3, _⟩ => ⟨S8x2048x2048, .i32⟩
  | .hbm, ⟨4, _⟩ => ⟨S8x1x2048, .f32⟩
  | .hbm, ⟨5, _⟩ => ⟨S8x2048x2048, .bf16⟩
  | .hbm, ⟨6, _⟩ => ⟨S8x2048x2048, .bf16⟩
  | .hbm, ⟨7, _⟩ => ⟨S8x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x2048, .bf16⟩
  | .local _ .vmem, ⟨3, _⟩ => ⟨S1x2048x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x2048x2048, .bf16⟩
  | .local _ .vmem, ⟨7, _⟩ => ⟨S1x1x2048, .f32⟩
  | .local _ .vmem, ⟨8, _⟩ => ⟨S1x1x2048, .f32⟩
  | .local _ .vmem, ⟨9, _⟩ => ⟨S1x256x2048, .f32⟩
  | .local _ .vmem, ⟨10, _⟩ => ⟨S1x256x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  shapeCasts_S256x2048_S1x256x2048 : S256x2048.ShapeCasts S1x256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x4096x2048.size a
  hwx0_0 : ∀ i : grid0.Coords, EltTy.bits .f32 = 32 ∨ (Rect.block (s := S8x4096x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x2048.size a
  hwx0_1 : ∀ i : grid0.Coords, EltTy.bits .bf16 = 32 ∨ (Rect.block (s := S8x2048x2048) S1x2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048x2048.size a ≤ S8x2048x2048.size a
  hwx0_3 : ∀ i : grid0.Coords, EltTy.bits .bf16 = 32 ∨ (Rect.block (s := S8x2048x2048) S1x2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x2048.size a
  hwx0_4 : ∀ i : grid0.Coords, EltTy.bits .f32 = 32 ∨ (Rect.block (s := S8x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x4096x2048.size a
  hwx0_5 : ∀ i : grid0.Coords, EltTy.bits .f32 = 32 ∨ (Rect.block (s := S8x4096x2048) S1x256x2048.size (cc0_transform_5 i) (hinb0_5 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S8x2048x2048 : Shape := ⟨3, ![8, 2048, 2048]⟩
abbrev S8x1x2048 : Shape := ⟨3, ![8, 1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x2048x2048, .i32⟩
  | .hbm, ⟨2, _⟩ => ⟨S8x1x2048, .f32⟩
  | .hbm, ⟨3, _⟩ => ⟨S8x2048x2048, .i32⟩
  | .hbm, ⟨4, _⟩ => ⟨S8x1x2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x4096x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S8x1x2048_S8x2048x2048_0_1_2 : S8x1x2048.BroadcastsInDim S8x2048x2048 (![0, 1, 2] : Fin 3 → Fin S8x2048x2048.rank)
  dot_S8x4096x2048_S8x2048x2048_S8x4096x2048_2_1_1_2_0_0_wf : DotDims.WF S8x4096x2048 S8x2048x2048 S8x4096x2048 [2] [1] [1] [2] [0] [0]

variable [Facts₀]

def dot_S8x4096x2048_S8x2048x2048_S8x4096x2048_2_1_1_2_0_0 : DotDims S8x4096x2048 S8x2048x2048 S8x4096x2048 where
  lhsContracting := [2]
  rhsContracting := [1]
  lhsNonContracting := [1]
  rhsNonContracting := [2]
  lhsBatch := [0]
  rhsBatch := [0]
  wf := dot_S8x4096x2048_S8x2048x2048_S8x4096x2048_2_1_1_2_0_0_wf

class Facts : Prop extends Facts₀ where

variable [Facts]
-- ==== Proof.TwoLayer.lean ====
/-
  Two scaled matrix products, expert by expert.

  For an expert `e`, a token `t` and an output channel `g`, with the hidden channel `f` and the input channel `h`
  summed over, the two arrangements of the same number are

    scale after each product :  (Σ_f ((Σ_h x[e,t,h] · A[e,h,f]) · s[e,0,f]) · B[e,f,g]) · u[e,0,g]
    scale folded into weights:   Σ_f (Σ_h x[e,t,h] · (A[e,h,f] · s[e,0,f])) · (B[e,f,g] · u[e,0,g])

  A per-column scale commutes with a matrix product: a factor that does not depend on the summed index moves across the
  sum. Over the reals that is distributivity with associativity and commutativity of the product. On the extended reals
  distributivity fails at the infinities, so the law is stated for arrays all of whose entries are real numbers.
-/
import Idealize.ShloMosaic.PureOps.Ideal
import Idealize.ShloMosaic.Lib.ValueIdx

noncomputable section

namespace TwoLayer

open Idealize.ShloMosaic Idealize.ShloMosaic.ValueIdx

/-- Activations and results: expert, token, channel. -/
abbrev Acts : Shape := ⟨3, ![8, 4096, 2048]⟩
/-- One square weight matrix per expert: expert, input channel, output channel. -/
abbrev Wts : Shape := ⟨3, ![8, 2048, 2048]⟩
/-- One scale per expert and output channel, kept as a row. -/
abbrev Scl : Shape := ⟨3, ![8, 1, 2048]⟩

/-- Each product is taken with the bare weights and its result scaled column by column. -/
def scaledAfter (x : Acts.Idx → EReal) (A : Wts.Idx → EReal) (s : Scl.Idx → EReal) (B : Wts.Idx → EReal)
    (u : Scl.Idx → EReal) : Acts.Idx → EReal := fun i =>
  (∑ f : Fin 2048, ((∑ h : Fin 2048, x (ix3 (i 0) (i 1) h) * A (ix3 (i 0) h f)) * s (ix3 (i 0) (0 : Fin 1) f))
      * B (ix3 (i 0) f (i 2))) * u (ix3 (i 0) (0 : Fin 1) (i 2))

/-- The weights are scaled column by column first, and each product taken with the scaled weights. -/
def scaledBefore (x : Acts.Idx → EReal) (A : Wts.Idx → EReal) (s : Scl.Idx → EReal) (B : Wts.Idx → EReal)
    (u : Scl.Idx → EReal) : Acts.Idx → EReal := fun i =>
  ∑ f : Fin 2048, (∑ h : Fin 2048, x (ix3 (i 0) (i 1) h) * (A (ix3 (i 0) h f) * s (ix3 (i 0) (0 : Fin 1) f)))
      * (B (ix3 (i 0) f (i 2)) * u (ix3 (i 0) (0 : Fin 1) (i 2)))

/-- A finite sum of real numbers, each read as an extended real, is the real sum read as an extended real. -/
theorem coe_sum {ι : Type} (S : Finset ι) (f : ι → ℝ) :
    (∑ k ∈ S, ((f k : ℝ) : EReal)) = ((∑ k ∈ S, f k : ℝ) : EReal) := by
  classical
  induction S using Finset.induction_on with
  | empty => simp
  | insert a S ha ih => rw [Finset.sum_insert ha, Finset.sum_insert ha, ih, EReal.coe_add]

/-- The law over the reals, for one row `a`, a matrix `b`, its column scales `s`, one column `c` of the second matrix
    and that column's scale `u`. -/
theorem scale_moves {ι κ : Type} [Fintype ι] [Fintype κ] (a : κ → ℝ) (b : κ → ι → ℝ) (s c : ι → ℝ) (u : ℝ) :
    (∑ f, ((∑ h, a h * b h f) * s f) * c f) * u = ∑ f, (∑ h, a h * (b h f * s f)) * (c f * u) := by
  rw [Finset.sum_mul]
  refine Finset.sum_congr rfl fun f _ => ?_
  have inner : ∑ h, a h * (b h f * s f) = (∑ h, a h * b h f) * s f := by
    rw [Finset.sum_mul]
    exact Finset.sum_congr rfl fun h _ => by ring
  rw [inner]
  ring

/-- The two arrangements agree on arrays of real numbers. -/
theorem scaledAfter_eq_scaledBefore (x : Acts.Idx → EReal) (A : Wts.Idx → EReal) (s : Scl.Idx → EReal)
    (B : Wts.Idx → EReal) (u : Scl.Idx → EReal)
    (hx : ∀ i, ∃ r : ℝ, x i = (r : EReal)) (hA : ∀ i, ∃ r : ℝ, A i = (r : EReal))
    (hs : ∀ i, ∃ r : ℝ, s i = (r : EReal)) (hB : ∀ i, ∃ r : ℝ, B i = (r : EReal))
    (hu : ∀ i, ∃ r : ℝ, u i = (r : EReal)) :
    scaledAfter x A s B u = scaledBefore x A s B u := by
  choose xr hx using hx
  choose Ar hA using hA
  choose sr hs using hs
  choose Br hB using hB
  choose ur hu using hu
  funext i
  simp only [scaledAfter, scaledBefore, hx, hA, hs, hB, hu]
  simp only [← EReal.coe_mul, coe_sum]
  exact congrArg (fun r : ℝ => (r : EReal))
    (scale_moves (fun h => xr (ix3 (i 0) (i 1) h)) (fun h f => Ar (ix3 (i 0) h f))
      (fun f => sr (ix3 (i 0) (0 : Fin 1) f)) (fun f => Br (ix3 (i 0) f (i 2))) (ur (ix3 (i 0) (0 : Fin 1) (i 2))))

end TwoLayer

end
-- ==== Proof.LibFinite.lean ====
/-
  "Every entry's absolute value is below `+∞`" means every entry is a real number.

  A general reading of the finiteness test `all (|x| < +∞)` over an array of extended reals: the and-reduction of the
  entrywise comparison is the all-ones word exactly when each entry is neither `+∞` nor `-∞`.
-/
import Idealize.ShloMosaic.PureOps.Ideal
import Idealize.ShloMosaic.PureOps.Ideal.Laws
import Idealize.ShloMosaic.Lib.ReduceAll

noncomputable section

namespace FiniteTest

open Idealize.ShloMosaic

/-- The single-precision pattern `0x7F800000` denotes `+∞`. -/
theorem inf_bits : Ideal.ofBits .f32 0x7F800000#32 = (⊤ : EReal) := by
  simp [Ideal.ofBits, Ideal.ieee]

/-- On the extended reals `max a (-a) < ⊤` holds exactly of the real numbers: at `⊤` the maximum is `⊤`, at `⊥` it is
    `-⊥ = ⊤`, and at a real `r` it is the real `|r|`. Only the direction used below is stated. -/
theorem real_of_max_neg_lt_top (a : EReal) (h : max a (-a) < ⊤) : ∃ r : ℝ, a = (r : EReal) := by
  induction a using EReal.rec with
  | bot => simp at h
  | coe r => exact ⟨r, rfl⟩
  | top => simp at h

/-- One entry of the test: if the ordered comparison `|a| < +∞` answers the word `1`, then `a` is a real number.
    Here `|a|` is `max a (-a)` and `+∞` is the value of the pattern `0x7F800000`. -/
theorem real_of_cmp_abs_lt_inf (a : EReal)
    (h : Ideal.cmp .olt (max a (-a)) (Ideal.ofBits .f32 0x7F800000#32) = 1#1) : ∃ r : ℝ, a = (r : EReal) := by
  rw [inf_bits] at h
  refine real_of_max_neg_lt_top a ?_
  by_contra hn
  simp [Ideal.cmp, hn] at h

/-- The scalar shape has one index. -/
theorem subsingleton_scalarIdx : Subsingleton (⟨0, ![]⟩ : Shape).Idx :=
  ⟨fun _ _ => funext fun d => d.elim0⟩

/-- The finiteness test read back, at one result index `j` of the scalar shape. For an array `x` of any shape `s`: if
    the and-reduction over all axes of the entrywise comparison `|x| < +∞` (the bound being the scalar constant
    `0x7F800000` broadcast to `s`), started from the word `1`, is `1`, then every entry of `x` is a real number. The shape
    witnesses `hb`, `hr`, `hu` are arbitrary. -/
theorem real_of_all_abs_lt_inf_at {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32) (j : (⟨0, ![]⟩ : Shape).Idx)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  haveI : Subsingleton (⟨0, ![]⟩ : Shape).Idx := subsingleton_scalarIdx
  have e := Host.reduce_andi_all _ _ hr hu j h i
  exact real_of_cmp_abs_lt_inf (x i) e

/-- The same, from the whole result being the all-ones word. -/
theorem real_of_all_abs_lt_inf {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu = fun _ => 1#1) :
    ∀ i, ∃ r : ℝ, x i = (r : EReal) :=
  real_of_all_abs_lt_inf_at hb hr hu x (fun d => d.elim0) (congrFun h _)

end FiniteTest

end
-- ==== Proof.FiniteInputs.lean ====
/-
  What the precondition says of the float inputs.

  The precondition is the conjunction of three tests, one per float input (the activations and the two rows of scales):
  every entry's absolute value is below `+∞`. Each test says that every entry of its array is a real number. The two integer
  weight arrays are not tested: an integer read as a number is always real.
-/
import proofs.«424031_j43868795961853_3_alg».proof.Pre_finite_inputs
import proofs.«424031_j43868795961853_3_alg».proof.Proof.LibFinite
import Idealize.ShloMosaic.Lib.Affine
import Idealize.ShloMosaic.Lib.ValueIdx

noncomputable section

namespace Cert.FiniteInputs

open Idealize.ShloMosaic Cert.Pre_finite_inputs

/-- If the three tests all answer `1`, the activations `x` and the scales `s1`, `s2` hold only real numbers. The answer is
    the `and` of the three and-reductions, read at the one index of the scalar shape and split twice. -/
theorem reals_of_finite_inputs [Facts] (x : FVec Ideal S8x4096x2048 .f32) (w1 : IVec S8x2048x2048 32)
    (s1 : FVec Ideal S8x1x2048 .f32) (w2 : IVec S8x2048x2048 32) (s2 : FVec Ideal S8x1x2048 .f32)
    (h : fn (F := Ideal) x w1 s1 w2 s2 = fun _ => 1#1) :
    (∀ i, ∃ r : ℝ, x i = (r : EReal)) ∧ (∀ i, ∃ r : ℝ, s1 i = (r : EReal)) ∧ (∀ i, ∃ r : ℝ, s2 i = (r : EReal)) := by
  have h0 : IntOp.andi (IntOp.andi _ _) _ = 1#1 := congrFun h ValueIdx.ix0
  obtain ⟨hxs, hu⟩ := IntOp.andi_eq_one.1 h0
  obtain ⟨hx, hs⟩ := IntOp.andi_eq_one.1 hxs
  exact ⟨FiniteTest.real_of_all_abs_lt_inf_at _ _ _ x _ hx, FiniteTest.real_of_all_abs_lt_inf_at _ _ _ s1 _ hs,
    FiniteTest.real_of_all_abs_lt_inf_at _ _ _ s2 _ hu⟩

end Cert.FiniteInputs

end
-- ==== Proof.RefValue.lean ====
/-
  The reference computes the arrangement with the scales folded into the weights.

  Its program converts each integer weight array to numbers, multiplies it by its row of scales broadcast down the columns,
  and contracts: first the activations with the scaled first weights over the input channel, then that result with the scaled
  second weights over the hidden channel, expert by expert. Read at an index `(e, t, g)` this is
  `Σ_f (Σ_h x[e,t,h] · (A[e,h,f] · s[e,0,f])) · (B[e,f,g] · u[e,0,g])`.
-/
import proofs.«424031_j43868795961853_3_alg».proof.Proof.Gen.ReferenceIdeal.Read
import proofs.«424031_j43868795961853_3_alg».proof.Proof.TwoLayer

noncomputable section

namespace Cert.ReferenceIdeal.RefValue

open Cert.ReferenceIdeal Cert.ReferenceIdeal.Gen Cert.ReferenceIdeal.Read Idealize.ShloMosaic Idealize.ShloMosaic.ValueIdx

/-- An integer array read as numbers. -/
def asReals (w : IVec S8x2048x2048 32) : S8x2048x2048.Idx → EReal := fun j => (((w j).toInt : ℝ) : EReal)

/-! The index of each operand that the result index `(e, t, g)`, the hidden channel `f` and the input channel `h` reach. -/

theorem acts_index (i : S8x4096x2048.Idx) (f h : Fin 2048) :
    lidx_main_v3 (lidx_main_v7 i f) h = ix3 (i 0) (i 1) h :=
  funext fun a => Fin.ext (by match a with | ⟨0, _⟩ => rfl | ⟨1, _⟩ => rfl | ⟨2, _⟩ => rfl)

theorem first_weight_index (i : S8x4096x2048.Idx) (f h : Fin 2048) :
    ridx_main_v3 (lidx_main_v7 i f) h = ix3 (i 0) h f :=
  funext fun a => Fin.ext (by match a with | ⟨0, _⟩ => rfl | ⟨1, _⟩ => rfl | ⟨2, _⟩ => rfl)

theorem first_scale_index (i : S8x4096x2048.Idx) (f h : Fin 2048) :
    idx_main_v1 (ridx_main_v3 (lidx_main_v7 i f) h) = ix3 (i 0) (0 : Fin 1) f :=
  funext fun a => Fin.ext (by match a with | ⟨0, _⟩ => rfl | ⟨1, _⟩ => rfl | ⟨2, _⟩ => rfl)

theorem second_weight_index (i : S8x4096x2048.Idx) (f : Fin 2048) :
    ridx_main_v7 i f = ix3 (i 0) f (i 2) :=
  funext fun a => Fin.ext (by match a with | ⟨0, _⟩ => rfl | ⟨1, _⟩ => rfl | ⟨2, _⟩ => rfl)

theorem second_scale_index (i : S8x4096x2048.Idx) (f : Fin 2048) :
    idx_main_v5 (ridx_main_v7 i f) = ix3 (i 0) (0 : Fin 1) (i 2) :=
  funext fun a => Fin.ext (by match a with | ⟨0, _⟩ => rfl | ⟨1, _⟩ => rfl | ⟨2, _⟩ => rfl)

/-- The reference's last stage is the arrangement with the scales folded into the weights. -/
theorem stage_eq_scaledBefore (x : FVec Ideal S8x4096x2048 .f32) (w1 : IVec S8x2048x2048 32) (s1 : FVec Ideal S8x1x2048 .f32)
    (w2 : IVec S8x2048x2048 32) (s2 : FVec Ideal S8x1x2048 .f32) :
    val_main_v7 (F := Ideal) x w1 s1 w2 s2 = TwoLayer.scaledBefore x (asReals w1) s1 (asReals w2) s2 := by
  funext i
  rw [val_main_v7_apply]
  unfold TwoLayer.scaledBefore
  refine Finset.sum_congr rfl fun f _ => ?_
  rw [val_main_v3_apply]
  refine congrArg₂ (· * ·) (Finset.sum_congr rfl fun h _ => ?_) ?_
  · rw [val_main_v2_apply, val_main_v1_apply, val_main_v0_apply, acts_index, first_scale_index, first_weight_index]
    rfl
  · rw [val_main_v6_apply, val_main_v5_apply, val_main_v4_apply, second_scale_index, second_weight_index]
    rfl

end Cert.ReferenceIdeal.RefValue

end
-- ==== Proof.KernelBlock.lean ====
/-
  What the kernel's body computes at one grid point, entry by entry.

  The body loads a tile of 256 tokens `x`, the expert's two weight matrices `A`, `B` and its two rows of scales `s`, `u`,
  and stores `((x · A) ⊙ s) · B) ⊙ u`: a matrix product into a zero accumulator, a column-by-column scaling by a row
  broadcast over the tile, and the same again. The leading unit axis of every block is dropped before the arithmetic and put
  back before the store, and the changes of float format are the identity on exact values. At row `p` and column `g` of
  the tile the stored number is
  `(Σ_f ((Σ_h x[0,p,h] · A[0,h,f]) · s[0,0,f]) · B[0,f,g]) · u[0,0,g]`.
-/
import proofs.«424031_j43868795961853_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The product's operand indices: rows of the left operand against columns of the right, one contracted axis -/

theorem lhs_row (j : S256x2048.Idx) (q : dot_S256x2048_S2048x2048_S256x2048_1_0_0_1_n_n.contr.Idx) :
    (dot_S256x2048_S2048x2048_S256x2048_1_0_0_1_n_n.lhsIdx j q 0).val = (j 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl

theorem lhs_contracted (j : S256x2048.Idx) (q : dot_S256x2048_S2048x2048_S256x2048_1_0_0_1_n_n.contr.Idx) :
    (dot_S256x2048_S2048x2048_S256x2048_1_0_0_1_n_n.lhsIdx j q 1).val = (q ⟨0, by decide⟩).val :=
  dot_S256x2048_S2048x2048_S256x2048_1_0_0_1_n_n.lhsIdx_val_of_single rfl j q

theorem rhs_contracted (j : S256x2048.Idx) (q : dot_S256x2048_S2048x2048_S256x2048_1_0_0_1_n_n.contr.Idx) :
    (dot_S256x2048_S2048x2048_S256x2048_1_0_0_1_n_n.rhsIdx j q 0).val = (q ⟨0, by decide⟩).val :=
  dot_S256x2048_S2048x2048_S256x2048_1_0_0_1_n_n.rhsIdx_val_of_single rfl j q

theorem rhs_col (j : S256x2048.Idx) (q : dot_S256x2048_S2048x2048_S256x2048_1_0_0_1_n_n.contr.Idx) :
    (dot_S256x2048_S2048x2048_S256x2048_1_0_0_1_n_n.rhsIdx j q 1).val = (j 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- One product into the zero accumulator, at row `p` and column `c`: the sum over the contracted channel `k` of the left
    operand's `(p, k)` entry times the right operand's `(k, c)` entry. -/
theorem product_at (l : S256x2048.Idx → EReal) (r : S2048x2048.Idx → EReal) (p : Fin 256) (c : Fin 2048) :
    matmul (F := Ideal) (φ₁ := .bf16) (φ₂ := .bf16) dot_S256x2048_S2048x2048_S256x2048_1_0_0_1_n_n none l r (constant S256x2048 .f32 0x00000000#32) (ix2 p c)
      = ∑ k : Fin 2048, l (ix2 p k) * r (ix2 k c) := by
  simp only [matmul]
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p c) ((contrEquiv1 dot_S256x2048_S2048x2048_S256x2048_1_0_0_1_n_n 2048 rfl rfl).symm k) = ix2 p k := funext fun a => Fin.ext (by
    match a with
    | ⟨0, _⟩ => exact lhs_row _ _
    | ⟨1, _⟩ => exact (lhs_contracted _ _).trans hk)
  have er : dot_S256x2048_S2048x2048_S256x2048_1_0_0_1_n_n.rhsIdx (ix2 p c) ((contrEquiv1 dot_S256x2048_S2048x2048_S256x2048_1_0_0_1_n_n 2048 rfl rfl).symm k) = ix2 k c := funext fun a => Fin.ext (by
    match a with
    | ⟨0, _⟩ => exact (rhs_contracted _ _).trans hk
    | ⟨1, _⟩ => exact rhs_col _ _)
  rw [el, er]

/-- The number the body stores at row `p`, column `g` of its tile, from the five blocks it loaded. -/
def tileEntry (x : S1x256x2048.Idx → EReal) (A : S1x2048x2048.Idx → EReal) (s : S1x1x2048.Idx → EReal)
    (B : S1x2048x2048.Idx → EReal) (u : S1x1x2048.Idx → EReal) (p : Fin 256) (g : Fin 2048) : EReal :=
  (∑ f : Fin 2048, ((∑ h : Fin 2048, x (ix3 (0 : Fin 1) p h) * A (ix3 (0 : Fin 1) h f)) * s (ix3 (0 : Fin 1) (0 : Fin 1) f))
      * B (ix3 (0 : Fin 1) f g)) * u (ix3 (0 : Fin 1) (0 : Fin 1) g)

/-- The body's one stored value, read at an entry of the tile. -/
theorem payload_at (v0 : Vec Ideal S1x256x2048 .f32) (v3 : Vec Ideal S1x2048x2048 .bf16) (v6 : Vec Ideal S1x1x2048 .f32)
    (v11 : Vec Ideal S1x2048x2048 .bf16) (v14 : Vec Ideal S1x1x2048 .f32) (z : Fin 1) (p : Fin 256) (g : Fin 2048) :
    k0_pay1 v0 v3 v6 v11 v14 (ix3 z p g) = tileEntry v0 v3 v6 v11 v14 p g := by
  unfold k0_pay1 tileEntry
  simp only [shapeCast_ab_1ab_apply, mulf_apply, product_at, truncf_apply, broadcastTo_1b_ab_apply, shapeCast_1ab_ab_apply]

end Cert.KernelIdeal.Block

end
-- ==== Proof.KernelValue.lean ====
/-
  The kernel's result array is the arrangement with each scale applied after its product.

  The grid runs over the 8 experts and, within an expert, over 16 tiles of 256 tokens. At the point `(e, τ)` the body sees
  tokens `256·τ … 256·τ + 255` of expert `e`, that expert's two weight matrices (the integer arrays already converted to
  numbers by the two conversions that precede the call) and its two rows of scales, and writes the same tile of the result.
  So entry `(e, t, g)` of the result is written by the point `(e, t / 256)`, from row `t mod 256` of its tile, and holds
  `(Σ_f ((Σ_h x[e,t,h] · A[e,h,f]) · s[e,0,f]) · B[e,f,g]) · u[e,0,g]`. The 128 tiles cover the array.
-/
import proofs.«424031_j43868795961853_3_alg».proof.Proof.Gen.KernelIdeal.Value
import proofs.«424031_j43868795961853_3_alg».proof.Proof.KernelBlock
import proofs.«424031_j43868795961853_3_alg».proof.Proof.TwoLayer
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- An integer array read as numbers. -/
def asReals (w : IVec S8x2048x2048 32) : S8x2048x2048.Idx → EReal := fun j => (((w j).toInt : ℝ) : EReal)

/-! ## The arrays the call finds -/

/-- The first conversion's result: the first integer weights as numbers. -/
theorem first_weights (c : Dev nD) :
    (V m c main_v0 : S8x2048x2048.Idx → EReal) = asReals (m ((c : Thread nD τ).loc main_arg1)) := by
  dsimp only [Gen.V, Gen.hostOps0]; after_results; rfl

/-- The second conversion's result: the second integer weights as numbers. -/
theorem second_weights (c : Dev nD) :
    (V m c main_v1 : S8x2048x2048.Idx → EReal) = asReals (m ((c : Thread nD τ).loc main_arg3)) := by
  dsimp only [Gen.V, Gen.hostOps0]; after_results; rfl

/-- The whole result, as one function of the five argument arrays. -/
def result (c : Dev nD) : S8x4096x2048.Idx → EReal :=
  TwoLayer.scaledAfter (m ((c : Thread nD τ).loc main_arg0)) (asReals (m ((c : Thread nD τ).loc main_arg1)))
    (m ((c : Thread nD τ).loc main_arg2)) (asReals (m ((c : Thread nD τ).loc main_arg3))) (m ((c : Thread nD τ).loc main_arg4))

/-! ## Where each window's block lies, relative to the result's tile -/

theorem zero_offsets : (![0, 0, 0] : Fin 3 → Nat) = fun _ => 0 := funext fun a => by fin_cases a <;> rfl

/-- The printed index maps, decided over the 128 points: the activations' tile moves with the result's tile; the weights and
    the scales follow the expert alone. -/
theorem block_indices : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) ≤ 7 ∧ win0_5.index t (1 : Fin 3) ≤ 15 :=
  (by decide +kernel : ∀ t : Fin grid0.N, _)

/-- Every tile of the result is some point's. -/
theorem every_tile : ∀ (e : Fin 8) (q : Fin 16), ∃ t : Fin cfg0.N, win0_5.index t = ![e.val, q.val, 0] :=
  (by decide +kernel : ∀ (e : Fin 8) (q : Fin 16), ∃ t : Fin grid0.N, win0_5.index t = ![e.val, q.val, 0])

/-- The array index of entry `(z, p, g)` of the result's tile at point `t`. -/
abbrev at_tile (t : Fin cfg0.N) (z : Fin 1) (p : Fin 256) (g : Fin 2048) : S8x4096x2048.Idx :=
  ((cfg0.win 5).blk t).view.emb (ix3 z p g)

/-- The activations the body reads for row `p` of its tile are that token's row. -/
theorem read_acts (c : Dev nD) (t : Fin cfg0.N) (z : Fin 1) (p : Fin 256) (g h : Fin 2048) :
    iblk m c 0 t (ix3 (0 : Fin 1) p h)
      = m ((c : Thread nD τ).loc main_arg0) (ix3 (at_tile t z p g 0) (at_tile t z p g 1) h) := by
  show V m c main_arg0 (((cfg0.win 0).blk t).view.emb (ix3 (0 : Fin 1) p h)) = _
  rw [V_main_arg0]
  refine congrArg _ (funext fun a => Fin.ext ?_)
  obtain ⟨e0, e1, e2, e3, -⟩ := block_indices t
  have hz : z.val = 0 := by omega
  match a with
  | ⟨0, _⟩ => show win0_0.index t (0 : Fin 3) * 1 + 1 * (0 : Fin 1).val = win0_5.index t (0 : Fin 3) * 1 + 1 * z.val; omega
  | ⟨1, _⟩ => show win0_0.index t (1 : Fin 3) * 256 + 1 * p.val = win0_5.index t (1 : Fin 3) * 256 + 1 * p.val; omega
  | ⟨2, _⟩ => show win0_0.index t (2 : Fin 3) * 2048 + 1 * h.val = h.val; omega

/-- The first weights the body reads are the expert's whole first matrix. -/
theorem read_first_weights (c : Dev nD) (t : Fin cfg0.N) (z : Fin 1) (p : Fin 256) (g h f : Fin 2048) :
    iblk m c 1 t (ix3 (0 : Fin 1) h f)
      = asReals (m ((c : Thread nD τ).loc main_arg1)) (ix3 (at_tile t z p g 0) h f) := by
  show V m c main_v0 (((cfg0.win 1).blk t).view.emb (ix3 (0 : Fin 1) h f)) = _
  rw [first_weights]
  refine congrArg _ (funext fun a => Fin.ext ?_)
  obtain ⟨-, -, -, -, e0, e1, e2, -⟩ := block_indices t
  have hz : z.val = 0 := by omega
  match a with
  | ⟨0, _⟩ => show win0_1.index t (0 : Fin 3) * 1 + 1 * (0 : Fin 1).val = win0_5.index t (0 : Fin 3) * 1 + 1 * z.val; omega
  | ⟨1, _⟩ => show win0_1.index t (1 : Fin 3) * 2048 + 1 * h.val = h.val; omega
  | ⟨2, _⟩ => show win0_1.index t (2 : Fin 3) * 2048 + 1 * f.val = f.val; omega

/-- The first scales the body reads are the expert's row of first scales. -/
theorem read_first_scales (c : Dev nD) (t : Fin cfg0.N) (z : Fin 1) (p : Fin 256) (g f : Fin 2048) :
    iblk m c 2 t (ix3 (0 : Fin 1) (0 : Fin 1) f)
      = m ((c : Thread nD τ).loc main_arg2) (ix3 (at_tile t z p g 0) (0 : Fin 1) f) := by
  show V m c main_arg2 (((cfg0.win 2).blk t).view.emb (ix3 (0 : Fin 1) (0 : Fin 1) f)) = _
  rw [V_main_arg2]
  refine congrArg _ (funext fun a => Fin.ext ?_)
  obtain ⟨-, -, -, -, -, -, -, e0, e1, e2, -⟩ := block_indices t
  have hz : z.val = 0 := by omega
  match a with
  | ⟨0, _⟩ => show win0_2.index t (0 : Fin 3) * 1 + 1 * (0 : Fin 1).val = win0_5.index t (0 : Fin 3) * 1 + 1 * z.val; omega
  | ⟨1, _⟩ => show win0_2.index t (1 : Fin 3) * 1 + 1 * (0 : Fin 1).val = (0 : Fin 1).val; omega
  | ⟨2, _⟩ => show win0_2.index t (2 : Fin 3) * 2048 + 1 * f.val = f.val; omega

/-- The second weights the body reads are the expert's whole second matrix. -/
theorem read_second_weights (c : Dev nD) (t : Fin cfg0.N) (z : Fin 1) (p : Fin 256) (g f : Fin 2048) :
    iblk m c 3 t (ix3 (0 : Fin 1) f g)
      = asReals (m ((c : Thread nD τ).loc main_arg3)) (ix3 (at_tile t z p g 0) f (at_tile t z p g 2)) := by
  show V m c main_v1 (((cfg0.win 3).blk t).view.emb (ix3 (0 : Fin 1) f g)) = _
  rw [second_weights]
  refine congrArg _ (funext fun a => Fin.ext ?_)
  obtain ⟨-, -, -, e5, -, -, -, -, -, -, e0, e1, e2, -⟩ := block_indices t
  have hz : z.val = 0 := by omega
  match a with
  | ⟨0, _⟩ => show win0_3.index t (0 : Fin 3) * 1 + 1 * (0 : Fin 1).val = win0_5.index t (0 : Fin 3) * 1 + 1 * z.val; omega
  | ⟨1, _⟩ => show win0_3.index t (1 : Fin 3) * 2048 + 1 * f.val = f.val; omega
  | ⟨2, _⟩ => show win0_3.index t (2 : Fin 3) * 2048 + 1 * g.val = win0_5.index t (2 : Fin 3) * 2048 + 1 * g.val; omega

/-- The second scales the body reads are the expert's row of second scales. -/
theorem read_second_scales (c : Dev nD) (t : Fin cfg0.N) (z : Fin 1) (p : Fin 256) (g : Fin 2048) :
    iblk m c 4 t (ix3 (0 : Fin 1) (0 : Fin 1) g)
      = m ((c : Thread nD τ).loc main_arg4) (ix3 (at_tile t z p g 0) (0 : Fin 1) (at_tile t z p g 2)) := by
  show V m c main_arg4 (((cfg0.win 4).blk t).view.emb (ix3 (0 : Fin 1) (0 : Fin 1) g)) = _
  rw [V_main_arg4]
  refine congrArg _ (funext fun a => Fin.ext ?_)
  obtain ⟨-, -, -, e5, -, -, -, -, -, -, -, -, -, e0, e1, e2, -⟩ := block_indices t
  have hz : z.val = 0 := by omega
  match a with
  | ⟨0, _⟩ => show win0_4.index t (0 : Fin 3) * 1 + 1 * (0 : Fin 1).val = win0_5.index t (0 : Fin 3) * 1 + 1 * z.val; omega
  | ⟨1, _⟩ => show win0_4.index t (1 : Fin 3) * 1 + 1 * (0 : Fin 1).val = (0 : Fin 1).val; omega
  | ⟨2, _⟩ => show win0_4.index t (2 : Fin 3) * 2048 + 1 * g.val = win0_5.index t (2 : Fin 3) * 2048 + 1 * g.val; omega

/-! ## Tile by tile, then the whole array -/

/-- What point `t` writes back is its tile of the whole result. -/
theorem tile_writes (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero zero_offsets]
  simp only [View.ld_unit_zero (S := S1x256x2048) zero_offsets, View.ld_unit_zero (S := S1x2048x2048) zero_offsets,
    View.ld_unit_zero (S := S1x1x2048) zero_offsets]
  funext j
  obtain ⟨z, p, g, rfl⟩ : ∃ (z : Fin 1) (p : Fin 256) (g : Fin 2048), j = ix3 z p g := ⟨j 0, j 1, j 2, eq_ix3 j⟩
  show k0_pay1 (iblk m c 0 t) (iblk m c 1 t) (iblk m c 2 t) (iblk m c 3 t) (iblk m c 4 t) (ix3 z p g)
    = result m c (at_tile t z p g)
  refine (Block.payload_at (iblk m c 0 t) (iblk m c 1 t) (iblk m c 2 t) (iblk m c 3 t) (iblk m c 4 t) z p g).trans ?_
  unfold Block.tileEntry result TwoLayer.scaledAfter
  exact congrArg₂ (· * ·)
    (Finset.sum_congr rfl fun f _ => congrArg₂ (· * ·)
      (congrArg₂ (· * ·)
        (Finset.sum_congr rfl fun h _ => congrArg₂ (· * ·) (read_acts m c t z p g h) (read_first_weights m c t z p g h f))
        (read_first_scales m c t z p g f))
      (read_second_weights m c t z p g f))
    (read_second_scales m c t z p g)

/-- An entry of the result lies in point `t`'s tile exactly when each coordinate lies in the tile's range on its axis. -/
theorem mem_tile (t : Fin cfg0.N) (i : S8x4096x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v2).slice (win0_5.rect t)).set ↔ _
  rw [View.set_slice_whole, Rect.mem_set_unit]
  exact Iff.rfl

/-- Every entry `(e, t, g)` of the result lies in the tile of the point `(e, t / 256)`. -/
theorem tiles_cover (i : S8x4096x2048.Idx) :
    ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 2048 := (i 2).isLt
  obtain ⟨t, ht⟩ := every_tile ⟨(i 0).val, h0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_tile]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-- After the run the result array is the whole result. -/
theorem final (c : Dev nD) : (dats m 0 c).arrAt 5 cfg0.N = result m c :=
  (dats m 0 c).arrAt_eq_of_cover 5 (result m c) (fun t _ => tile_writes m c t) tiles_cover

/-- The kernel's run, with its result array named as the arrangement that scales after each product, the arguments
    unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.lean ====
/-
  A two-layer expert network with integer weights and per-channel scales: the kernel against its reference.

  For each of 8 experts the network maps 4096 tokens of 2048 channels through two square weight matrices, each stored as
  integers with one scale per output channel. The reference scales each weight matrix column by column and then contracts;
  the kernel contracts with the bare integer weights, tile by tile of 256 tokens, and scales the columns of each product
  afterwards. Read on exact values both compute, at expert `e`, token `t` and channel `g`,

      Σ_f (Σ_h x[e,t,h] · A[e,h,f] · s[e,0,f]) · B[e,f,g] · u[e,0,g],

  the kernel as `(Σ_f ((Σ_h x·A) · s) · B) · u` and the reference as `Σ_f (Σ_h x·(A·s)) · (B·u)`. A column scale moves across
  the sum over the contracted channel by distributivity, which on the extended reals needs every entry to be a real number:
  the precondition gives that for the activations and the scales, and an integer read as a number is always real. The
  changes of float format in the kernel are the identity on exact values, and an integer converted to either float format
  is the same number.

  The three programs terminate without fault and leave their arguments unchanged; the idealized kernel is the kernel's own
  text read on exact values (no rewrite was applied); and the two idealized programs end with equal results.
-/
import proofs.«424031_j43868795961853_3_alg».proof.Defs
import proofs.«424031_j43868795961853_3_alg».proof.Proof.Gen.Kernel
import proofs.«424031_j43868795961853_3_alg».proof.Proof.Gen.Kernel.Skeleton
import proofs.«424031_j43868795961853_3_alg».proof.Proof.Gen.Kernel.Launch
import proofs.«424031_j43868795961853_3_alg».proof.Proof.Gen.Kernel.Points
import proofs.«424031_j43868795961853_3_alg».proof.Proof.Gen.Kernel.Frame
import proofs.«424031_j43868795961853_3_alg».proof.Proof.Gen.KernelIdeal
import proofs.«424031_j43868795961853_3_alg».proof.Proof.Gen.KernelIdeal.Skeleton
import proofs.«424031_j43868795961853_3_alg».proof.Proof.Gen.KernelIdeal.Launch
import proofs.«424031_j43868795961853_3_alg».proof.Proof.Gen.KernelIdeal.Points
import proofs.«424031_j43868795961853_3_alg».proof.Proof.Gen.KernelIdeal.Frame
import proofs.«424031_j43868795961853_3_alg».proof.Proof.Gen.ReferenceIdeal
import proofs.«424031_j43868795961853_3_alg».proof.Proof.Gen.Pre_finite_inputs
import proofs.«424031_j43868795961853_3_alg».proof.Proof.Gen.KernelIdeal.Value
import proofs.«424031_j43868795961853_3_alg».proof.Proof.Gen.ReferenceIdeal.Run
import proofs.«424031_j43868795961853_3_alg».proof.Proof.Gen.ReferenceIdeal.Read
import proofs.«424031_j43868795961853_3_alg».proof.Proof.TwoLayer
import proofs.«424031_j43868795961853_3_alg».proof.Proof.FiniteInputs
import proofs.«424031_j43868795961853_3_alg».proof.Proof.RefValue
import proofs.«424031_j43868795961853_3_alg».proof.Proof.KernelValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read on exact values. -/
theorem frame_kernelIdeal : Cert.frame_KernelIdeal := fun m ρ _ => Cert.KernelIdeal.Gen.frame m ρ

/-- The reference is a straight line of array operations: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- On exact values the kernel's result array ends at the arrangement that scales after each product, and the reference's
    at the arrangement that scales the weights first, of arguments that agree; the two arrangements are equal because the
    precondition makes the activations and the scales real numbers. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4, Cert.ReferenceIdeal.Read.val_main_v7_eq, Cert.ReferenceIdeal.RefValue.stage_eq_scaledBefore]
  obtain ⟨hx, hs, hu⟩ := Cert.FiniteInputs.reals_of_finite_inputs _ _ _ _ _ (hpre c)
  exact (TwoLayer.scaledAfter_eq_scaledBefore _ _ _ _ _ hx (fun _ => ⟨_, rfl⟩) hs (fun _ => ⟨_, rfl⟩) hu).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
